-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S32768 : Shape := ⟨1, ![32768]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x1024 .f32) (main_arg1 : FVec F S1024x1024 .f32) (main_arg2 : FVec F S1024 .f32) (main_arg3 : FVec F S1024x1024 .f32) (main_arg4 : FVec F S1024 .f32) (main_arg5 : IVec S32768 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S512x1024 : Shape := ⟨2, ![512, 1024]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S32768, .i32⟩
  | .hbm, ⟨6, _⟩ => ⟨S32768x1, .i32⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S32768x1 : S32768.ShapeCasts S32768x1
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S32768 : Shape := ⟨1, ![32768]⟩
abbrev S_ : Shape := ⟨0, ![]⟩
abbrev S32768x1 : Shape := ⟨2, ![32768, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.RouteLaw.lean ====
/-
  Two experts chosen by a one-bit mask: the arithmetic both programs share.

  A token's mask is the number `μ ∈ {0, 1}` that says whether its route word is zero; the other expert's mask is
  `1 - μ`. One program masks the token's row BEFORE each expert's linear map (and masks the bias separately), the other
  masks each expert's affine output AFTER it. On the extended reals the two agree with no finiteness assumption: with
  `μ = 1` the second expert's terms are products with `0`, which vanish for every extended real, infinite ones
  included, and the first expert's are products with `1`; with `μ = 0` the roles swap.
-/
import Idealize.ShloMosaic.PureOps.Ideal.Laws

noncomputable section

open scoped BigOperators

namespace Cert.Route

open Idealize.ShloMosaic

/-- The word `0x3F800000` is the number one. -/
theorem one_word : Ideal.ofBits .f32 0x3F800000#32 = 1 := by
  simp [Ideal.ofBits, Ideal.ieee, -EReal.coe_mul]; norm_num

/-- A one-bit word read unsigned, as an extended real. -/
def bitVal (b : BitVec 1) : EReal := FloatOps.uitofp (F := Ideal) .f32 b

/-- It is one or zero. -/
theorem bitVal_cases (b : BitVec 1) : bitVal b = 1 ∨ bitVal b = 0 := by
  rcases BitVec.eq_zero_or_eq_one b with rfl | rfl
  · right
    show (((0#1 : BitVec 1).toNat : ℝ) : EReal) = 0
    simp
  · left
    show (((1#1 : BitVec 1).toNat : ℝ) : EReal) = 1
    simp

/-- Widening the bit to 32 bits with zeros and reading that word SIGNED gives the same number: the widened word is
    `0` or `1`, far from the sign bit. -/
theorem sitofp_widened (b : BitVec 1) : FloatOps.sitofp (F := Ideal) .f32 (b.setWidth 32) = bitVal b := by
  rcases BitVec.eq_zero_or_eq_one b with rfl | rfl
  · show ((((0#1 : BitVec 1).setWidth 32).toInt : ℝ) : EReal) = (((0#1 : BitVec 1).toNat : ℝ) : EReal)
    have h : ((0#1 : BitVec 1).setWidth 32).toInt = 0 := by decide
    rw [h]; simp
  · show ((((1#1 : BitVec 1).setWidth 32).toInt : ℝ) : EReal) = (((1#1 : BitVec 1).toNat : ℝ) : EReal)
    have h : ((1#1 : BitVec 1).setWidth 32).toInt = 1 := by decide
    rw [h]; simp

theorem one_sub_one : (1 : EReal) - 1 = 0 := by
  rw [← EReal.coe_one, ← EReal.coe_sub, sub_self, EReal.coe_zero]

/-- Masking before the two linear maps is masking after them: for a mask `μ` that is one or zero, a row `x`, the
    two experts' columns `w₁`, `w₂` and biases `b₁`, `b₂`. -/
theorem mask_before_eq_after {K : Type*} [Fintype K] (μ : EReal) (hμ : μ = 1 ∨ μ = 0) (x w₁ w₂ : K → EReal)
    (b₁ b₂ : EReal) :
    ((∑ k, (x k * μ) * w₁ k) + b₁ * μ) + ((∑ k, (x k * (1 - μ)) * w₂ k) + b₂ * (1 - μ))
      = ((∑ k, x k * w₁ k) + b₁) * μ + ((∑ k, x k * w₂ k) + b₂) * (1 - μ) := by
  rcases hμ with rfl | rfl
  · simp only [one_sub_one, mul_one, mul_zero, zero_mul, Finset.sum_const_zero, add_zero]
  · simp only [sub_zero, mul_one, mul_zero, zero_mul, Finset.sum_const_zero, add_zero, zero_add]

end Cert.Route

end
-- ==== Proof.KernelBlock.lean ====
/-
  What the kernel body stores, at one index of its block.

  At a grid point the body holds a block of 512 token rows `x`, their 512 route words `r` (a column), the two whole
  weight matrices and the two bias rows. At row `p`, column `q` of the block it stores
  `(∑ₖ x[p,k] · w₁[k,q] + c₁[0,q]) · μ + (∑ₖ x[p,k] · w₂[k,q] + c₂[0,q]) · (1 - μ)`, `μ` the mask of `r[p,0]`:
  the changes of float format are the identity on the extended reals, each product into a zero accumulator is the
  plain sum over the contracted axis, a bias row is repeated down the rows and a mask column across the columns.
-/
import proofs.«170315_j47055661695574_1_alg».proof.Proof.Gen.KernelIdeal.Skeleton
import proofs.«170315_j47055661695574_1_alg».proof.Proof.LibContraction
import proofs.«170315_j47055661695574_1_alg».proof.Proof.RouteLaw
import Idealize.ShloMosaic.Lib.Pipeline.Value
import Idealize.ShloMosaic.Lib.ValueIdx
import Idealize.ShloMosaic.PureOps.Ideal.Laws

noncomputable section

open scoped BigOperators

namespace Cert.Route.Block

open Cert.KernelIdeal Cert.KernelIdeal.Gen
open Idealize.ShloMosaic Idealize.ShloMosaic.TcCoe Idealize.ShloMosaic.ValueIdx Cert.Lib.Contraction

/-- A block of rows times a whole weight matrix, into a zero accumulator: the sum over the shared axis. -/
theorem product_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [sum_contr dot_S512x1024_S1024x1024_S512x1024_1_0_0_1_n_n (cl := 1) rfl 1024 rfl]
  refine Finset.sum_congr rfl fun k _ => ?_
  have el : (dot_S512x1024_S1024x1024_S512x1024_1_0_0_1_n_n).lhsIdx (ix2 p q) ((contrFin dot_S512x1024_S1024x1024_S512x1024_1_0_0_1_n_n (cl := 1) rfl 1024 rfl).symm k) = ix2 p k :=
    funext fun d => Fin.ext (by
      match d with
      | ⟨0, _⟩ => exact lhs_free dot_S512x1024_S1024x1024_S512x1024_1_0_0_1_n_n (nl := 0) rfl rfl (ix2 p q) _ (by decide)
      | ⟨1, _⟩ => exact lhs_contracted dot_S512x1024_S1024x1024_S512x1024_1_0_0_1_n_n (cl := 1) rfl 1024 rfl (ix2 p q) k)
  have er : (dot_S512x1024_S1024x1024_S512x1024_1_0_0_1_n_n).rhsIdx (ix2 p q) ((contrFin dot_S512x1024_S1024x1024_S512x1024_1_0_0_1_n_n (cl := 1) rfl 1024 rfl).symm k) = ix2 k q :=
    funext fun d => Fin.ext (by
      match d with
      | ⟨0, _⟩ => exact rhs_contracted dot_S512x1024_S1024x1024_S512x1024_1_0_0_1_n_n (cl := 1) (cr := 0) rfl rfl 1024 rfl (ix2 p q) k
      | ⟨1, _⟩ => exact rhs_free dot_S512x1024_S1024x1024_S512x1024_1_0_0_1_n_n (nl := 0) (nr := 1) rfl rfl rfl rfl (ix2 p q) _ (by decide))
  rw [el, er]

/-- A bias row repeated down the 512 rows reads the row at the column. -/
theorem bias_apply {α : Type} (c : S1x1024.Idx → α) (p : Fin 512) (q : Fin 1024) :
    broadcastTo S512x1024 (shapeCast S1x1024 c shapeCasts_S1x1024_S1x1024) broadcasts_S1x1024_S512x1024 (ix2 p q)
      = c (ix2 0 q) := by
  rw [shapeCast_self]
  exact broadcastTo_apply c _ (ix2 p q) (ix2 0 q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

/-- A column repeated across the 1024 columns reads the column at the row. -/
theorem column_apply {α : Type} (v : S512x1.Idx → α) (p : Fin 512) (q : Fin 1024) :
    broadcastTo S512x1024 v broadcasts_S512x1_S512x1024 (ix2 p q) = v (ix2 p 0) :=
  broadcastTo_apply v _ (ix2 p q) (ix2 p 0) (fun a => by
    match a with
    | ⟨0, _⟩ => show p.val = if (512 : Nat) = 1 then 0 else p.val; rw [if_neg (by decide)]
    | ⟨1, _⟩ => show (0 : Nat) = if (1 : Nat) = 1 then 0 else q.val; rw [if_pos rfl])

/-- The mask column: the compare bit widened with zeros and read signed is the bit's number. -/
theorem mask_apply (r : IVec S512x1 32) (j : S512x1.Idx) :
    (sitofp .f32 (extui 32 (cmpi .eq (shapeCast S512x1 r shapeCasts_S512x1_S512x1) (broadcast S512x1 0#32)) natLt_1_32)
        : FVec Ideal S512x1 .f32) j
      = bitVal (IntOp.cmpi .eq (r j) 0#32) := by
  rw [shapeCast_self]
  exact sitofp_widened _

/-- The body's stored value at row `p`, column `q` of the block. -/
theorem payload_apply (x : FVec Ideal S512x1024 .f32) (w₁ w₂ : FVec Ideal S1024x1024 .f32) (r : IVec S512x1 32)
    (c₁ c₂ : FVec Ideal S1x1024 .f32) (p : Fin 512) (q : Fin 1024) :
    k0_pay1 (F := Ideal) x w₁ w₂ r c₁ c₂ (ix2 p q)
      = ((∑ k : Fin 1024, x (ix2 p k) * w₁ (ix2 k q)) + c₁ (ix2 0 q)) * bitVal (IntOp.cmpi .eq (r (ix2 p 0)) 0#32)
        + ((∑ k : Fin 1024, x (ix2 p k) * w₂ (ix2 k q)) + c₂ (ix2 0 q))
            * (1 - bitVal (IntOp.cmpi .eq (r (ix2 p 0)) 0#32)) := by
  unfold k0_pay1
  simp only [addf_apply, mulf_apply, subf_apply, product_apply, bias_apply, column_apply, mask_apply, truncf_apply,
    broadcast_apply]
  rw [show FloatOps.ofBits (F := Ideal) .f32 0x3F800000#32 = 1 from one_word]

end Cert.Route.Block

end
-- ==== Proof.Routed.lean ====
/-
  What both programs compute, as one function of the argument arrays.

  For token `p` and output column `q`, expert `e`'s affine map gives `∑ₖ x[p, k] · Wₑ[k, q] + bₑ[q]`. Token `p`'s
  mask `μ p` is one when its route word is zero and zero otherwise. The routed output is expert 1's value times
  `μ p` plus expert 2's times `1 - μ p`: the value of the one expert the token is routed to.
-/
import proofs.«170315_j47055661695574_1_alg».proof.Proof.RouteLaw
import Idealize.ShloMosaic.Lib.ValueIdx

noncomputable section

open scoped BigOperators

namespace Cert.Route

open Idealize.ShloMosaic Idealize.ShloMosaic.ValueIdx

/-- Token `p`'s mask: one when its route word is zero, else zero. -/
def mask (route : IVec ⟨1, ![32768]⟩ 32) (p : Fin 32768) : EReal :=
  bitVal (IntOp.cmpi .eq (route (ix1 p)) 0#32)

theorem mask_cases (route : IVec ⟨1, ![32768]⟩ 32) (p : Fin 32768) : mask route p = 1 ∨ mask route p = 0 :=
  bitVal_cases _

/-- One expert's affine map at token `p`, column `q`. -/
def affine (x : FVec Ideal ⟨2, ![32768, 1024]⟩ .f32) (W : FVec Ideal ⟨2, ![1024, 1024]⟩ .f32)
    (b : FVec Ideal ⟨1, ![1024]⟩ .f32) (p : Fin 32768) (q : Fin 1024) : EReal :=
  (∑ k : Fin 1024, x (ix2 p k) * W (ix2 k q)) + b (ix1 q)

/-- The routed output: each token's row through the expert its route word selects. -/
def routed (x : FVec Ideal ⟨2, ![32768, 1024]⟩ .f32) (W₁ : FVec Ideal ⟨2, ![1024, 1024]⟩ .f32)
    (b₁ : FVec Ideal ⟨1, ![1024]⟩ .f32) (W₂ : FVec Ideal ⟨2, ![1024, 1024]⟩ .f32) (b₂ : FVec Ideal ⟨1, ![1024]⟩ .f32)
    (route : IVec ⟨1, ![32768]⟩ 32) : FVec Ideal ⟨2, ![32768, 1024]⟩ .f32 :=
  fun i => affine x W₁ b₁ (i 0) (i 1) * mask route (i 0) + affine x W₂ b₂ (i 0) (i 1) * (1 - mask route (i 0))

theorem routed_apply (x : FVec Ideal ⟨2, ![32768, 1024]⟩ .f32) (W₁ : FVec Ideal ⟨2, ![1024, 1024]⟩ .f32)
    (b₁ : FVec Ideal ⟨1, ![1024]⟩ .f32) (W₂ : FVec Ideal ⟨2, ![1024, 1024]⟩ .f32) (b₂ : FVec Ideal ⟨1, ![1024]⟩ .f32)
    (route : IVec ⟨1, ![32768]⟩ 32) (p : Fin 32768) (q : Fin 1024) :
    routed x W₁ b₁ W₂ b₂ route (ix2 p q)
      = ((∑ k : Fin 1024, x (ix2 p k) * W₁ (ix2 k q)) + b₁ (ix1 q)) * mask route p
        + ((∑ k : Fin 1024, x (ix2 p k) * W₂ (ix2 k q)) + b₂ (ix1 q)) * (1 - mask route p) := rfl

end Cert.Route

end
-- ==== Proof.KernelArray.lean ====
/-
  From the kernel's blocks to its whole result array.

  Grid point `t` of 64 works on token rows `512·t … 512·t + 511`: it is handed that block of `x`, the same rows of the
  route column, and the whole weight matrices and bias rows, and writes back the same rows of the result. So what
  point `t` writes back is block `t` of the routed output of the argument arrays; the 64 blocks tile the result's
  32768 rows (row `i` lies in block `i / 512`), so after the run the result array IS the routed output.

  The route column and the bias rows the region finds are reshapes of the 1-d arguments: same elements in row-major
  order, so entry `(p, 0)` of the column is route word `p` and entry `(0, q)` of a bias row is bias `q`.
-/
import proofs.«170315_j47055661695574_1_alg».proof.Proof.Gen.KernelIdeal.Value
import proofs.«170315_j47055661695574_1_alg».proof.Proof.KernelBlock
import proofs.«170315_j47055661695574_1_alg».proof.Proof.Routed
import Idealize.ShloMosaic.Lib.StableHlo.Run
import Idealize.ShloMosaic.Lib.Pipeline.Value

noncomputable section

open scoped BigOperators

namespace Cert.Route.Array

open Cert.KernelIdeal Cert.KernelIdeal.Gen Cert.KernelIdeal.Value Cert.Route.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays, by their literal types -/

abbrev tokens (c : Dev nD) : FVec Ideal S32768x1024 .f32 := m ((c : Thread nD τ).loc main_arg0)
abbrev weights₁ (c : Dev nD) : FVec Ideal S1024x1024 .f32 := m ((c : Thread nD τ).loc main_arg1)
abbrev bias₁ (c : Dev nD) : FVec Ideal S1024 .f32 := m ((c : Thread nD τ).loc main_arg2)
abbrev weights₂ (c : Dev nD) : FVec Ideal S1024x1024 .f32 := m ((c : Thread nD τ).loc main_arg3)
abbrev bias₂ (c : Dev nD) : FVec Ideal S1024 .f32 := m ((c : Thread nD τ).loc main_arg4)
abbrev routes (c : Dev nD) : IVec S32768 32 := m ((c : Thread nD τ).loc main_arg5)

/-- The routed output of core `c`'s argument arrays. -/
abbrev result (c : Dev nD) : FVec Ideal S32768x1024 .f32 :=
  routed (tokens m c) (weights₁ m c) (bias₁ m c) (weights₂ m c) (bias₂ m c) (routes m c)

/-! ## The grid -/

theorem point_lt (t : Fin cfg0.N) : t.val < 64 := lt_of_lt_of_eq t.isLt N_0

/-- Row `p` of point `t`'s block is row `512·t + p` of the array. -/
def row (t : Fin cfg0.N) (p : Fin 512) : Fin 32768 := ⟨t.val * 512 + p.val, by have := point_lt t; omega⟩

theorem hz : (![0, 0] : Fin 2 → Nat) = fun _ => 0 := funext fun a => by fin_cases a <;> rfl

/-- The printed index maps, decided over the grid: the token, route and result windows sit at block row `t`, the
    weights and biases at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Where each window's block sits in its array -/

theorem emb_tokens (t : Fin cfg0.N) (p : Fin 512) (k : Fin 1024) :
    ((cfg0.win 0).blk t).view.emb (ix2 p k) = (ix2 (row t p) k : S32768x1024.Idx) := by
  obtain ⟨e0, e1, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 1024 + 1 * k.val = k.val; omega

theorem emb_routes (t : Fin cfg0.N) (p : Fin 512) :
    ((cfg0.win 1).blk t).view.emb (ix2 p 0) = (ix2 (row t p) 0 : S32768x1.Idx) := by
  obtain ⟨-, -, e0, e1, -⟩ := idx_facts t
  funext a; apply Fin.ext
  match a with
  | ⟨0, _⟩ => show win0_1.index t (0 : Fin 2) * 512 + 1 * p.val = t.val * 512 + p.val; omega
  | ⟨1, _⟩ => show win0_1.index t (1 : Fin 2) * 1 + 1 * 0 = 0; omega

theorem emb_weights₁ (t : Fin cfg0.N) (k q : Fin 1024) :
    ((cfg0.win 2).blk t).view.emb (ix2 k q) = (ix2 k q : S1024x1024.Idx) := by
  obtain ⟨-, -, -, -, e0, e1, -⟩ := idx_facts t
  funext a; apply Fin.ext
  match a with
  | ⟨0, _⟩ => show win0_2.index t (0 : Fin 2) * 1024 + 1 * k.val = k.val; omega
  | ⟨1, _⟩ => show win0_2.index t (1 : Fin 2) * 1024 + 1 * q.val = q.val; omega

theorem emb_bias₁ (t : Fin cfg0.N) (q : Fin 1024) :
    ((cfg0.win 3).blk t).view.emb (ix2 0 q) = (ix2 0 q : S1x1024.Idx) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * q.val = q.val; omega

theorem emb_weights₂ (t : Fin cfg0.N) (k q : Fin 1024) :
    ((cfg0.win 4).blk t).view.emb (ix2 k q) = (ix2 k q : S1024x1024.Idx) := by
  obtain ⟨-, -, -, -, -, -, -, -, e0, e1, -⟩ := idx_facts t
  funext a; apply Fin.ext
  match a with
  | ⟨0, _⟩ => show win0_4.index t (0 : Fin 2) * 1024 + 1 * k.val = k.val; omega
  | ⟨1, _⟩ => show win0_4.index t (1 : Fin 2) * 1024 + 1 * q.val = q.val; omega

theorem emb_bias₂ (t : Fin cfg0.N) (q : Fin 1024) :
    ((cfg0.win 5).blk t).view.emb (ix2 0 q) = (ix2 0 q : S1x1024.Idx) := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 1024 + 1 * q.val = q.val; omega

theorem emb_result (t : Fin cfg0.N) (p : Fin 512) (q : Fin 1024) :
    ((cfg0.win 6).blk t).view.emb (ix2 p q) = (ix2 (row t p) q : S32768x1024.Idx) := by
  obtain ⟨-, -, -, -, -, -, -, -, -, -, -, -, e0, e1⟩ := idx_facts t
  funext a; apply Fin.ext
  match a with
  | ⟨0, _⟩ => show win0_6.index t (0 : Fin 2) * 512 + 1 * p.val = t.val * 512 + p.val; omega
  | ⟨1, _⟩ => show win0_6.index t (1 : Fin 2) * 1024 + 1 * q.val = q.val; omega

/-! ## The reshaped arguments the region finds -/

theorem route_column (c : Dev nD) :
    (V m c main_v0 : S32768x1.Idx → BitVec 32) = shapeCast S32768x1 (routes m c) shapeCasts_S32768_S32768x1 := by
  dsimp only [Gen.V, Gen.hostOps0]; after_results; rfl

theorem bias_row₁ (c : Dev nD) :
    (V m c main_v1 : S1x1024.Idx → EReal) = shapeCast S1x1024 (bias₁ m c) shapeCasts_S1024_S1x1024 := by
  dsimp only [Gen.V, Gen.hostOps0]; after_results; rfl

theorem bias_row₂ (c : Dev nD) :
    (V m c main_v2 : S1x1024.Idx → EReal) = shapeCast S1x1024 (bias₂ m c) shapeCasts_S1024_S1x1024 := by
  dsimp only [Gen.V, Gen.hostOps0]; after_results; rfl

/-- Entry `(p, 0)` of the reshaped column is element `p`. -/
theorem column_entry {α : Type} (v : S32768.Idx → α) (p : Fin 32768) :
    shapeCast S32768x1 v shapeCasts_S32768_S32768x1 (ix2 p 0) = v (ix1 p) :=
  shapeCast_apply v _ (ix2 p 0) (ix1 p) (by rw [Shape.rowMajor_val_one, Shape.rowMajor_val_two]; show p.val = p.val * 1 + 0; omega)

/-- Entry `(0, q)` of the reshaped row is element `q`. -/
theorem row_entry {α : Type} (v : S1024.Idx → α) (q : Fin 1024) :
    shapeCast S1x1024 v shapeCasts_S1024_S1x1024 (ix2 0 q) = v (ix1 q) :=
  shapeCast_apply v _ (ix2 0 q) (ix1 q) (by rw [Shape.rowMajor_val_one, Shape.rowMajor_val_two]; show q.val = 0 * 1024 + q.val; omega)

/-! ## The blocks a point is handed -/

theorem block_tokens (c : Dev nD) (t : Fin cfg0.N) (p : Fin 512) (k : Fin 1024) :
    iblk m c 0 t (ix2 p k) = tokens m c (ix2 (row t p) k) := by
  show V m c main_arg0 (((cfg0.win 0).blk t).view.emb (ix2 p k)) = _
  rw [emb_tokens, V_main_arg0]

theorem block_routes (c : Dev nD) (t : Fin cfg0.N) (p : Fin 512) :
    iblk m c 1 t (ix2 p 0) = routes m c (ix1 (row t p)) := by
  show V m c main_v0 (((cfg0.win 1).blk t).view.emb (ix2 p 0)) = _
  rw [emb_routes, route_column, column_entry]

theorem block_weights₁ (c : Dev nD) (t : Fin cfg0.N) (k q : Fin 1024) :
    iblk m c 2 t (ix2 k q) = weights₁ m c (ix2 k q) := by
  show V m c main_arg1 (((cfg0.win 2).blk t).view.emb (ix2 k q)) = _
  rw [emb_weights₁, V_main_arg1]

theorem block_bias₁ (c : Dev nD) (t : Fin cfg0.N) (q : Fin 1024) :
    iblk m c 3 t (ix2 0 q) = bias₁ m c (ix1 q) := by
  show V m c main_v1 (((cfg0.win 3).blk t).view.emb (ix2 0 q)) = _
  rw [emb_bias₁, bias_row₁, row_entry]

theorem block_weights₂ (c : Dev nD) (t : Fin cfg0.N) (k q : Fin 1024) :
    iblk m c 4 t (ix2 k q) = weights₂ m c (ix2 k q) := by
  show V m c main_arg3 (((cfg0.win 4).blk t).view.emb (ix2 k q)) = _
  rw [emb_weights₂, V_main_arg3]

theorem block_bias₂ (c : Dev nD) (t : Fin cfg0.N) (q : Fin 1024) :
    iblk m c 5 t (ix2 0 q) = bias₂ m c (ix1 q) := by
  show V m c main_v2 (((cfg0.win 5).blk t).view.emb (ix2 0 q)) = _
  rw [emb_bias₂, bias_row₂, row_entry]

/-! ## What a point writes back -/

/-- Point `t` writes back block `t` of the routed output. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S512x1024) hz, View.ld_unit_zero (S := S1024x1024) hz,
    View.ld_unit_zero (S := S512x1) hz, View.ld_unit_zero (S := S1x1024) hz]
  funext j
  obtain ⟨p, q, rfl⟩ : ∃ (p : Fin 512) (q : Fin 1024), j = ix2 p q := ⟨j 0, j 1, eq_ix2 j⟩
  show k0_pay1 (F := Ideal) (iblk m c 0 t) (iblk m c 2 t) (iblk m c 4 t) (iblk m c 1 t) (iblk m c 3 t) (iblk m c 5 t) (ix2 p q)
    = result m c (((cfg0.win 6).blk t).view.emb (ix2 p q))
  rw [emb_result]
  refine ((payload_apply (iblk m c 0 t) (iblk m c 2 t) (iblk m c 4 t) (iblk m c 1 t) (iblk m c 3 t) (iblk m c 5 t) p q).trans ?_).trans
    (routed_apply (tokens m c) (weights₁ m c) (bias₁ m c) (weights₂ m c) (bias₂ m c) (routes m c) (row t p) q).symm
  rw [block_bias₁, block_bias₂, block_routes]
  simp only [block_tokens, block_weights₁, block_weights₂]
  rfl

/-! ## The blocks tile the result -/

theorem mem_blk (t : Fin cfg0.N) (i : S32768x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v3).slice (win0_6.rect t)).set ↔ _
  rw [View.set_slice_whole, Rect.mem_set_unit]
  exact Iff.rfl

/-- Row `i` of the result lies in the block of point `i / 512`. -/
theorem cover (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : grid0.N = 64 := N_0
  let t : Fin cfg0.N := ⟨(i 0).val / 512, by show _ < grid0.N; omega⟩
  obtain ⟨-, -, -, -, -, -, -, -, -, -, -, -, e0, e1⟩ := idx_facts t
  have ht : t.val = (i 0).val / 512 := rfl
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1024 ≤ (i 1).val ∧ (i 1).val < win0_6.index t (1 : Fin 2) * 1024 + 1024
    omega

/-- After the run the result array is the routed output of the argument arrays. -/
theorem final (c : Dev nD) : (dats m 0 c).arrAt 6 cfg0.N = result m c :=
  (dats m 0 c).arrAt_eq_of_cover 6 (result m c) (fun t _ => flushed_eq m c t) cover

/-- The kernel's run: it terminates with the result array at the routed output and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Route.Array

end
-- ==== Proof.ReferenceRouted.lean ====
/-
  The reference computes the routed output.

  Read one operation at a time, the reference's result at token `p`, column `q` is
  `(∑ₖ (x[p,k] · μ p) · W₁[k,q] + b₁[q] · μ p) + (∑ₖ (x[p,k] · (1 - μ p)) · W₂[k,q] + b₂[q] · (1 - μ p))`
  with `μ p` the token's mask: its rows are masked before each expert's linear map. Masking before is masking
  after, so this is the routed output.
-/
import proofs.«170315_j47055661695574_1_alg».proof.Proof.Gen.ReferenceIdeal.Read
import proofs.«170315_j47055661695574_1_alg».proof.Proof.Routed

noncomputable section

open scoped BigOperators

namespace Cert.Route.Reference

open Cert.ReferenceIdeal Cert.ReferenceIdeal.Gen Cert.ReferenceIdeal.Read
open Idealize.ShloMosaic Idealize.ShloMosaic.ValueIdx

/-! ## The mask columns -/

/-- The column of masks `[32768, 1]` holds token `p`'s mask in row `p`. -/
theorem mask_col (route : IVec S32768 32) (j : S32768x1.Idx) :
    val_main_v3 (F := Ideal) route j = mask route (j 0) := by
  rw [val_main_v3_apply, val_main_v2_apply, val_main_v1_apply, val_main_v0_apply, val_main_c_apply]
  have e : idx_main_v3 j = ix1 (j 0) := funext fun a => Fin.ext (by match a with | ⟨0, _⟩ => rfl)
  rw [e]
  rfl

/-- The column of the other expert's masks holds `1 - μ p` in row `p`. -/
theorem other_col (route : IVec S32768 32) (j : S32768x1.Idx) :
    val_main_v5 (F := Ideal) route j = 1 - mask route (j 0) := by
  rw [val_main_v5_apply, val_main_v4_apply, val_main_cst_apply, mask_col]
  show Ideal.ofBits .f32 0x3F800000#32 - mask route (j 0) = _
  rw [one_word]

/-! ## Where the composed index maps land -/

theorem lidx8 (p : Fin 32768) (q k : Fin 1024) : lidx_main_v8 (ix2 p q) k = ix2 p k :=
  funext fun a => Fin.ext (by match a with | ⟨0, _⟩ => rfl | ⟨1, _⟩ => rfl)
theorem ridx8 (p : Fin 32768) (q k : Fin 1024) : ridx_main_v8 (ix2 p q) k = ix2 k q :=
  funext fun a => Fin.ext (by match a with | ⟨0, _⟩ => rfl | ⟨1, _⟩ => rfl)
theorem lidx16 (p : Fin 32768) (q k : Fin 1024) : lidx_main_v16 (ix2 p q) k = ix2 p k :=
  funext fun a => Fin.ext (by match a with | ⟨0, _⟩ => rfl | ⟨1, _⟩ => rfl)
theorem ridx16 (p : Fin 32768) (q k : Fin 1024) : ridx_main_v16 (ix2 p q) k = ix2 k q :=
  funext fun a => Fin.ext (by match a with | ⟨0, _⟩ => rfl | ⟨1, _⟩ => rfl)
theorem bias_idx9 (p : Fin 32768) (q : Fin 1024) : idx_main_v9 (idx_main_v10 (ix2 p q)) = ix1 q :=
  funext fun a => Fin.ext (by match a with | ⟨0, _⟩ => rfl)
theorem bias_idx17 (p : Fin 32768) (q : Fin 1024) : idx_main_v17 (idx_main_v18 (ix2 p q)) = ix1 q :=
  funext fun a => Fin.ext (by match a with | ⟨0, _⟩ => rfl)

/-! ## The reference's result -/

/-- The reference's result array is the routed output of its arguments. -/
theorem result_eq (x : FVec Ideal S32768x1024 .f32) (W₁ : FVec Ideal S1024x1024 .f32) (b₁ : FVec Ideal S1024 .f32)
    (W₂ : FVec Ideal S1024x1024 .f32) (b₂ : FVec Ideal S1024 .f32) (route : IVec S32768 32) :
    val_main_v22 (F := Ideal) x W₁ b₁ W₂ b₂ route = routed x W₁ b₁ W₂ b₂ route := by
  funext i
  obtain ⟨p, q, rfl⟩ : ∃ (p : Fin 32768) (q : Fin 1024), i = ix2 p q := ⟨i 0, i 1, eq_ix2 i⟩
  rw [routed_apply, val_main_v22_apply, val_main_v13_apply, val_main_v21_apply, val_main_v8_apply, val_main_v16_apply,
    val_main_v12_apply, val_main_v20_apply, val_main_v10_apply, val_main_v9_apply, val_main_v18_apply,
    val_main_v17_apply, val_main_v11_apply, val_main_v19_apply, mask_col, other_col, bias_idx9, bias_idx17]
  simp only [val_main_v7_apply, val_main_v15_apply, val_main_v6_apply, val_main_v14_apply, mask_col, other_col,
    lidx8, ridx8, lidx16, ridx16, Ideal.mulf_def, Ideal.addf_def]
  exact mask_before_eq_after (mask route p) (mask_cases route p) (fun k => x (ix2 p k)) (fun k => W₁ (ix2 k q))
    (fun k => W₂ (ix2 k q)) (b₁ (ix1 q)) (b₂ (ix1 q))

end Cert.Route.Reference

end
-- ==== Proof.lean ====
/-
  A two-expert mixture with hard routing: `out[p] = x[p] · W_e + b_e`, `e` the expert token `p`'s route word selects
  (expert 1 when the word is zero, expert 2 otherwise), over 32768 tokens of width 1024.

  Both programs evaluate both experts on every token and combine them with the mask `μ p ∈ {0, 1}` and its complement
  `1 - μ p`. The kernel masks each expert's affine OUTPUT, `(x[p] · W₁ + b₁) · μ p + (x[p] · W₂ + b₂) · (1 - μ p)`, one
  block of 512 token rows per grid point; the reference masks each expert's INPUT row and bias,
  `((x[p] · μ p) · W₁ + b₁ · μ p) + ((x[p] · (1 - μ p)) · W₂ + b₂ · (1 - μ p))`. On the extended reals the two are equal
  for every input, finite or not: one of the two masks is `1` and the other `0`, a product with `0` is `0` whatever the
  other factor, and a sum of zeros is zero (`Cert.Route.mask_before_eq_after`). The kernel's changes of float format
  are the identity there, and its two compare-and-convert spellings of the mask give the same number
  (`Cert.Route.sitofp_widened`).

  The kernel's result array is the routed output of the arguments (`Cert.Route.Array.run`: what a grid point writes
  back is its block of that function, and the blocks tile the array); so is the reference's
  (`Cert.Route.Reference.result_eq`, over its run read one operation at a time). The three frames are the programs'
  runs with the results dropped; the idealization rewrote nothing, so `preserves` has nothing to state.
-/
import proofs.«170315_j47055661695574_1_alg».proof.Defs
import proofs.«170315_j47055661695574_1_alg».proof.Proof.Gen.Kernel
import proofs.«170315_j47055661695574_1_alg».proof.Proof.Gen.Kernel.Skeleton
import proofs.«170315_j47055661695574_1_alg».proof.Proof.Gen.Kernel.Launch
import proofs.«170315_j47055661695574_1_alg».proof.Proof.Gen.Kernel.Points
import proofs.«170315_j47055661695574_1_alg».proof.Proof.Gen.Kernel.Frame
import proofs.«170315_j47055661695574_1_alg».proof.Proof.Gen.KernelIdeal
import proofs.«170315_j47055661695574_1_alg».proof.Proof.Gen.KernelIdeal.Skeleton
import proofs.«170315_j47055661695574_1_alg».proof.Proof.Gen.KernelIdeal.Launch
import proofs.«170315_j47055661695574_1_alg».proof.Proof.Gen.KernelIdeal.Points
import proofs.«170315_j47055661695574_1_alg».proof.Proof.Gen.KernelIdeal.Frame
import proofs.«170315_j47055661695574_1_alg».proof.Proof.Gen.ReferenceIdeal
import proofs.«170315_j47055661695574_1_alg».proof.Proof.Gen.Pre_finite_inputs
import proofs.«170315_j47055661695574_1_alg».proof.Proof.Gen.KernelIdeal.Value
import proofs.«170315_j47055661695574_1_alg».proof.Proof.Gen.ReferenceIdeal.Run
import proofs.«170315_j47055661695574_1_alg».proof.Proof.Gen.ReferenceIdeal.Read
import proofs.«170315_j47055661695574_1_alg».proof.Proof.KernelArray
import proofs.«170315_j47055661695574_1_alg».proof.Proof.ReferenceRouted
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the routed output of those arguments. -/
theorem algebraic : Cert.algebraic_KernelIdeal_ReferenceIdeal := by
  intro m ρ m' ρ' _ hagree
  refine ⟨fun c => Cert.Route.Array.result m c, Cert.Route.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v22_eq _ _ _ _ _ _).trans (Cert.Route.Reference.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
